-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1000x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_

variable [Facts]

def fn {F : FTy → Type} [FloatOps F] (main_arg0 : FVec F S16384x1024 .f32) (main_arg1 : IVec S16384 32) (main_arg2 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  main_v8
-- ==== Kernel.lean ====
abbrev S16384x1024 : Shape := ⟨2, ![16384, 1024]⟩
abbrev S16384 : Shape := ⟨1, ![16384]⟩
abbrev S1000x1024 : Shape := ⟨2, ![1000, 1024]⟩
abbrev S1024x1024 : Shape := ⟨2, ![1024, 1024]⟩
abbrev S1024 : Shape := ⟨1, ![1024]⟩
abbrev S1000x1 : Shape := ⟨2, ![1000, 1]⟩
abbrev S1x1024 : Shape := ⟨2, ![1, 1024]⟩
abbrev S1000 : Shape := ⟨1, ![1000]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S1000x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .i32⟩
  | .local _ .vmem, ⟨3, _⟩ => ⟨S1024, .i32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1000x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1024_S1024_0 : ∀ a, (![0] : Fin 1 → Nat) a + S1024.size a ≤ S1024.size a
  h_S1024 : 0 < S1024.numel
  shapeCasts_S1024_S1x1024 : S1024.ShapeCasts S1x1024
  iota_S1000x1_d0_w32 : S1000x1.Iotas .tc 32 [0]
  broadcasts_S1000x1_S1000x1024 : S1000x1.Broadcasts S1000x1024
  broadcasts_S1x1024_S1000x1024 : S1x1024.Broadcasts S1000x1024
  natLt_1_32 : 1 < 32
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  reduces_S1000x1024_S1000 : S1000x1024.Reduces [1] S1000
  shapeCasts_S1000_S1000x1 : S1000.ShapeCasts S1000x1
  dot_S1000x1024_S1024x1024_S1000x1024_1_0_0_1_n_n_wf : DotDims.WF S1000x1024 S1024x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .i32 = 32 ∨ (Rect.block (s := S16384) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S1000x1024.size a
  hwx0_2 : ∀ i : grid0.Coords, EltTy.bits .f32 = 32 ∨ (Rect.block (s := S1000x1024) S1000x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S1000x1024.size a
  hwx0_3 : ∀ i : grid0.Coords, EltTy.bits .f32 = 32 ∨ (Rect.block (s := S1000x1024) S1000x1024.size (cc0_transform_3 i) (hinb0_3 i)).WholeWords (EltTy.packing .f32)

variable [Facts₀]

def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1000x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩
abbrev S16384x1 : Shape := ⟨2, ![16384, 1]⟩
abbrev S1000 : Shape := ⟨1, ![1000]⟩
abbrev S1000x1 : Shape := ⟨2, ![1000, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S_, .f32⟩
  | .hbm, ⟨4, _⟩ => ⟨S1000x1024, .f32⟩
  | .hbm, ⟨5, _⟩ => ⟨S16384x1, .i32⟩
  | .hbm, ⟨6, _⟩ => ⟨S1000x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S1000, .f32⟩
  | .hbm, ⟨11, _⟩ => ⟨S16384x1, .i32⟩
  | .hbm, ⟨12, _⟩ => ⟨S1000, .f32⟩
  | .hbm, ⟨13, _⟩ => ⟨S1000x1, .f32⟩
  | .hbm, ⟨14, _⟩ => ⟨S_, .f32⟩
  | .hbm, ⟨15, _⟩ => ⟨S1000x1, .f32⟩
  | .hbm, ⟨16, _⟩ => ⟨S1000x1, .f32⟩
  | .hbm, ⟨17, _⟩ => ⟨S1000x1024, .f32⟩
  | .hbm, ⟨18, _⟩ => ⟨S1000x1024, .f32⟩
  | .hbm, ⟨19, _⟩ => ⟨S_, .f32⟩
  | .hbm, ⟨20, _⟩ => ⟨S1000x1024, .f32⟩
  | .hbm, ⟨21, _⟩ => ⟨S1000x1024, .f32⟩
  | .hbm, ⟨22, _⟩ => ⟨S_, .f32⟩
  | .hbm, ⟨23, _⟩ => ⟨S1000x1024, .f32⟩
  | .hbm, ⟨24, _⟩ => ⟨S1000x1024, .f32⟩
  | .hbm, ⟨25, _⟩ => ⟨S1000x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1000x1024 : S_.BroadcastsInDim S1000x1024 (![] : Fin 0 → Fin S1000x1024.rank)
  bcast_S16384_S16384x1_0 : S16384.BroadcastsInDim S16384x1 (![0] : Fin 1 → Fin S16384x1.rank)
  bcast_S_S16384 : S_.BroadcastsInDim S16384 (![] : Fin 0 → Fin S16384.rank)
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x1024_0_1 : S1000x1.BroadcastsInDim S1000x1024 (![0, 1] : Fin 2 → Fin S1000x1024.rank)
  scatter_S1000x1024_S16384x1_S16384x1024_1_0_0_1_wf : ScatterDims.WF S1000x1024 S16384x1 S16384x1024 [1] [0] [0] 1
  scatter_S1000_S16384x1_S16384_n_0_0_1_wf : ScatterDims.WF S1000 S16384x1 S16384 [] [0] [0] 1

variable [Facts₀]

def scatter_S1000x1024_S16384x1_S16384x1024_1_0_0_1 : ScatterDims S1000x1024 S16384x1 S16384x1024 where
  updateWindowDims := [1]
  insertedWindowDims := [0]
  scatterDimsToOperandDims := [0]
  indexVectorDim := 1
  wf := scatter_S1000x1024_S16384x1_S16384x1024_1_0_0_1_wf
def scatter_S1000_S16384x1_S16384_n_0_0_1 : ScatterDims S1000 S16384x1 S16384 where
  updateWindowDims := []
  insertedWindowDims := [0]
  scatterDimsToOperandDims := [0]
  indexVectorDim := 1
  wf := scatter_S1000_S16384x1_S16384_n_0_0_1_wf

class Facts : Prop extends Facts₀ where

variable [Facts]
-- ==== Proof.KernelCases.lean ====
/-
  WHAT ONE GRID POINT LEAVES BEHIND. The kernel keeps two running buffers between grid points: the per-class sums
  (1000 × 1024) and the per-class counts (1000 × 1). At the first point it clears both and then adds that tile's
  contribution; at every later point it adds the tile's contribution to what the point before left; at the last point
  it also writes the output block from the buffers it has just updated. Read as values:

    sums   after a point = payload 4 (labels tile, rows tile, sums before)      -- sums before = the zero block at point 0
    counts after a point = payload 5 (labels tile, counts before)               -- counts before = the zero column at point 0
    output at the last point = payload 6 (sums after, counts after, old centroids)

  Each is the single covering store of its buffer (preceded, at the first point, by the clearing store that the
  later load reads back).
-/
import proofs.«429281_j70325794505046_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValues

open Cert.KernelIdeal Cert.KernelIdeal.Gen

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a; rfl

/-- First point, sums: the clearing store's zero block read back, plus this tile's contribution. -/
theorem sums_first (c : Dev nD) (i : grid0.Coords) (a1 : Memref sig .tc .vmem S1024x1024 .f32) (h1 : a1.IsWhole) (a2 : Memref sig .tc .vmem S1024 .i32) (h2 : a2.IsWhole) (a3 : Memref sig .tc .vmem S1000x1024 .f32) (h3 : a3.IsWhole) (a4 : Memref sig .tc .vmem S1000x1024 .f32) (h4 : a4.IsWhole) (a5 : Memref sig .tc .vmem S1000x1024 .f32) (h5 : a5.IsWhole) (a6 : Memref sig .tc .vmem S1000x1 .f32) (h6 : a6.IsWhole) (hc0 : cond0_0 i) (hc1 : ¬cond0_1 i) (x0 : Vec F S1024x1024 .f32) (x1 : Vec F S1024 .i32) (x2 : Vec F S1000x1024 .f32) :
    sout0_A_0 c i a1 h1 a2 h2 a3 h3 a4 h4 a5 h5 a6 h6 hc0 hc1 x0 x1 x2 = k0_pay4 x1 x0 (k0_pay1 (F := F)) := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1000x1024) origin2]
  simp only [View.readAt_eq_ld, h1.read_unread, h2.read_unread, h3.read_unread, h5.read_unread, h6.read_unread, View.ld_unit_zero (S := S1024x1024) origin2,
    View.ld_unit_zero (S := S1000x1024) origin2, View.ld_unit_zero (S := S1000x1) origin2, View.ld_unit_zero (S := S1024) origin1,
    View.readCov_unit_zero (S := S1000x1024) _ origin2, View.readCov_unit_zero (S := S1000x1) _ origin2]

/-- First point, counts: the clearing store's zero column read back, plus this tile's count. -/
theorem counts_first (c : Dev nD) (i : grid0.Coords) (a1 : Memref sig .tc .vmem S1024x1024 .f32) (h1 : a1.IsWhole) (a2 : Memref sig .tc .vmem S1024 .i32) (h2 : a2.IsWhole) (a3 : Memref sig .tc .vmem S1000x1024 .f32) (h3 : a3.IsWhole) (a4 : Memref sig .tc .vmem S1000x1024 .f32) (h4 : a4.IsWhole) (a5 : Memref sig .tc .vmem S1000x1024 .f32) (h5 : a5.IsWhole) (a6 : Memref sig .tc .vmem S1000x1 .f32) (h6 : a6.IsWhole) (hc0 : cond0_0 i) (hc1 : ¬cond0_1 i) (x0 : Vec F S1024x1024 .f32) (x1 : Vec F S1024 .i32) (x2 : Vec F S1000x1024 .f32) :
    sout0_A_1 c i a1 h1 a2 h2 a3 h3 a4 h4 a5 h5 a6 h6 hc0 hc1 x0 x1 x2 = k0_pay5 x1 (k0_pay2 (F := F)) := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1000x1) origin2]
  simp only [View.readAt_eq_ld, h1.read_unread, h2.read_unread, h3.read_unread, h5.read_unread, h6.read_unread, View.ld_unit_zero (S := S1024x1024) origin2,
    View.ld_unit_zero (S := S1000x1024) origin2, View.ld_unit_zero (S := S1000x1) origin2, View.ld_unit_zero (S := S1024) origin1,
    View.readCov_unit_zero (S := S1000x1024) _ origin2, View.readCov_unit_zero (S := S1000x1) _ origin2]

/-- A middle point, sums: what the point before left, plus this tile's contribution. -/
theorem sums_mid (c : Dev nD) (i : grid0.Coords) (a1 : Memref sig .tc .vmem S1024x1024 .f32) (h1 : a1.IsWhole) (a2 : Memref sig .tc .vmem S1024 .i32) (h2 : a2.IsWhole) (a3 : Memref sig .tc .vmem S1000x1024 .f32) (h3 : a3.IsWhole) (a4 : Memref sig .tc .vmem S1000x1024 .f32) (h4 : a4.IsWhole) (a5 : Memref sig .tc .vmem S1000x1024 .f32) (h5 : a5.IsWhole) (a6 : Memref sig .tc .vmem S1000x1 .f32) (h6 : a6.IsWhole) (hc0 : ¬cond0_0 i) (hc1 : ¬cond0_1 i) (x0 : Vec F S1024x1024 .f32) (x1 : Vec F S1024 .i32) (x2 : Vec F S1000x1024 .f32) (xs0 : Vec F S1000x1024 .f32) (xs1 : Vec F S1000x1 .f32) :
    sout0_B_0 c i a1 h1 a2 h2 a3 h3 a4 h4 a5 h5 a6 h6 hc0 hc1 x0 x1 x2 xs0 xs1 = k0_pay4 x1 x0 xs0 := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  sl_unfold_words
  rw [View.canon_unit_zero origin2]
  simp only [View.readAt_eq_ld, h1.read_unread, h2.read_unread, h3.read_unread, h5.read_unread, h6.read_unread, View.ld_unit_zero (S := S1024x1024) origin2,
    View.ld_unit_zero (S := S1000x1024) origin2, View.ld_unit_zero (S := S1000x1) origin2, View.ld_unit_zero (S := S1024) origin1,
    View.readCov_unit_zero (S := S1000x1024) _ origin2, View.readCov_unit_zero (S := S1000x1) _ origin2]

/-- A middle point, counts: what the point before left, plus this tile's count. -/
theorem counts_mid (c : Dev nD) (i : grid0.Coords) (a1 : Memref sig .tc .vmem S1024x1024 .f32) (h1 : a1.IsWhole) (a2 : Memref sig .tc .vmem S1024 .i32) (h2 : a2.IsWhole) (a3 : Memref sig .tc .vmem S1000x1024 .f32) (h3 : a3.IsWhole) (a4 : Memref sig .tc .vmem S1000x1024 .f32) (h4 : a4.IsWhole) (a5 : Memref sig .tc .vmem S1000x1024 .f32) (h5 : a5.IsWhole) (a6 : Memref sig .tc .vmem S1000x1 .f32) (h6 : a6.IsWhole) (hc0 : ¬cond0_0 i) (hc1 : ¬cond0_1 i) (x0 : Vec F S1024x1024 .f32) (x1 : Vec F S1024 .i32) (x2 : Vec F S1000x1024 .f32) (xs0 : Vec F S1000x1024 .f32) (xs1 : Vec F S1000x1 .f32) :
    sout0_B_1 c i a1 h1 a2 h2 a3 h3 a4 h4 a5 h5 a6 h6 hc0 hc1 x0 x1 x2 xs0 xs1 = k0_pay5 x1 xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  sl_unfold_words
  rw [View.canon_unit_zero origin2]
  simp only [View.readAt_eq_ld, h1.read_unread, h2.read_unread, h3.read_unread, h5.read_unread, h6.read_unread, View.ld_unit_zero (S := S1024x1024) origin2,
    View.ld_unit_zero (S := S1000x1024) origin2, View.ld_unit_zero (S := S1000x1) origin2, View.ld_unit_zero (S := S1024) origin1,
    View.readCov_unit_zero (S := S1000x1024) _ origin2, View.readCov_unit_zero (S := S1000x1) _ origin2]

/-- The last point, sums: as at a middle point. -/
theorem sums_last (c : Dev nD) (i : grid0.Coords) (a1 : Memref sig .tc .vmem S1024x1024 .f32) (h1 : a1.IsWhole) (a2 : Memref sig .tc .vmem S1024 .i32) (h2 : a2.IsWhole) (a3 : Memref sig .tc .vmem S1000x1024 .f32) (h3 : a3.IsWhole) (a4 : Memref sig .tc .vmem S1000x1024 .f32) (h4 : a4.IsWhole) (a5 : Memref sig .tc .vmem S1000x1024 .f32) (h5 : a5.IsWhole) (a6 : Memref sig .tc .vmem S1000x1 .f32) (h6 : a6.IsWhole) (hc0 : ¬cond0_0 i) (hc1 : cond0_1 i) (x0 : Vec F S1024x1024 .f32) (x1 : Vec F S1024 .i32) (x2 : Vec F S1000x1024 .f32) (xs0 : Vec F S1000x1024 .f32) (xs1 : Vec F S1000x1 .f32) :
    sout0_C_0 c i a1 h1 a2 h2 a3 h3 a4 h4 a5 h5 a6 h6 hc0 hc1 x0 x1 x2 xs0 xs1 = k0_pay4 x1 x0 xs0 := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  sl_unfold_words
  rw [View.canon_unit_zero origin2]
  simp only [View.readAt_eq_ld, h1.read_unread, h2.read_unread, h3.read_unread, h5.read_unread, h6.read_unread, View.ld_unit_zero (S := S1024x1024) origin2,
    View.ld_unit_zero (S := S1000x1024) origin2, View.ld_unit_zero (S := S1000x1) origin2, View.ld_unit_zero (S := S1024) origin1,
    View.readCov_unit_zero (S := S1000x1024) _ origin2, View.readCov_unit_zero (S := S1000x1) _ origin2]

/-- The last point, counts: as at a middle point. -/
theorem counts_last (c : Dev nD) (i : grid0.Coords) (a1 : Memref sig .tc .vmem S1024x1024 .f32) (h1 : a1.IsWhole) (a2 : Memref sig .tc .vmem S1024 .i32) (h2 : a2.IsWhole) (a3 : Memref sig .tc .vmem S1000x1024 .f32) (h3 : a3.IsWhole) (a4 : Memref sig .tc .vmem S1000x1024 .f32) (h4 : a4.IsWhole) (a5 : Memref sig .tc .vmem S1000x1024 .f32) (h5 : a5.IsWhole) (a6 : Memref sig .tc .vmem S1000x1 .f32) (h6 : a6.IsWhole) (hc0 : ¬cond0_0 i) (hc1 : cond0_1 i) (x0 : Vec F S1024x1024 .f32) (x1 : Vec F S1024 .i32) (x2 : Vec F S1000x1024 .f32) (xs0 : Vec F S1000x1024 .f32) (xs1 : Vec F S1000x1 .f32) :
    sout0_C_1 c i a1 h1 a2 h2 a3 h3 a4 h4 a5 h5 a6 h6 hc0 hc1 x0 x1 x2 xs0 xs1 = k0_pay5 x1 xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero origin2]
  simp only [View.readAt_eq_ld, h1.read_unread, h2.read_unread, h3.read_unread, h5.read_unread, h6.read_unread, View.ld_unit_zero (S := S1024x1024) origin2,
    View.ld_unit_zero (S := S1000x1024) origin2, View.ld_unit_zero (S := S1000x1) origin2, View.ld_unit_zero (S := S1024) origin1,
    View.readCov_unit_zero (S := S1000x1024) _ origin2, View.readCov_unit_zero (S := S1000x1) _ origin2]

/-- The last point, output block: the updated centroids from the sums and counts this point has just stored. -/
theorem out_last (c : Dev nD) (i : grid0.Coords) (a1 : Memref sig .tc .vmem S1024x1024 .f32) (h1 : a1.IsWhole) (a2 : Memref sig .tc .vmem S1024 .i32) (h2 : a2.IsWhole) (a3 : Memref sig .tc .vmem S1000x1024 .f32) (h3 : a3.IsWhole) (a4 : Memref sig .tc .vmem S1000x1024 .f32) (h4 : a4.IsWhole) (a5 : Memref sig .tc .vmem S1000x1024 .f32) (h5 : a5.IsWhole) (a6 : Memref sig .tc .vmem S1000x1 .f32) (h6 : a6.IsWhole) (hc0 : ¬cond0_0 i) (hc1 : cond0_1 i) (x0 : Vec F S1024x1024 .f32) (x1 : Vec F S1024 .i32) (x2 : Vec F S1000x1024 .f32) (xs0 : Vec F S1000x1024 .f32) (xs1 : Vec F S1000x1 .f32) :
    out0_C_3 c i a1 h1 a2 h2 a3 h3 a4 h4 a5 h5 a6 h6 hc0 hc1 x0 x1 x2 xs0 xs1 = k0_pay6 (k0_pay4 x1 x0 xs0) (k0_pay5 x1 xs1) x2 := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero origin2]
  simp only [View.readAt_eq_ld, h1.read_unread, h2.read_unread, h3.read_unread, h5.read_unread, h6.read_unread, View.ld_unit_zero (S := S1024x1024) origin2,
    View.ld_unit_zero (S := S1000x1024) origin2, View.ld_unit_zero (S := S1000x1) origin2, View.ld_unit_zero (S := S1024) origin1,
    View.readCov_unit_zero (S := S1000x1024) _ origin2, View.readCov_unit_zero (S := S1000x1) _ origin2]

end Cert.KernelIdeal.PointValues

end
-- ==== Proof.Words.lean ====
/-
  LABEL WORDS AND INDICATORS. A batch row's label is a 32-bit word. Class `c` (one of 1000) is named by the word
  of `c`; read as a signed integer a word is `c` exactly when it is that word, so "the row's word equals the class's
  word" and "the row's signed value is the class's number" select the same rows, and a word naming no class (negative, or
  1000 and above) selects none under either reading. The indicator of that test, as a float, is 1 or 0; multiplying by it
  keeps or drops a term whatever the term is (`1 * x = x`, `0 * x = 0` hold for every extended real), and a sum over
  16384 rows is the sum over 16 tiles of the sums over each tile's 1024 rows (addition of extended reals is commutative
  and associative).
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.ClassMean

open Idealize.ShloMosaic Idealize.ShloMosaic.ValueIdx Idealize.ShloMosaic.StableHlo.Predicate

/-- A word read signed is the natural number `c` (below `2 ^ 31`) exactly when it is the word of `c`. -/
theorem toInt_eq_natCast_iff (b : BitVec 32) (c : ℕ) (hc : c < 2 ^ 31) : b.toInt = (c : ℤ) ↔ b = BitVec.ofNat 32 c := by
  constructor
  · intro h
    apply BitVec.eq_of_toNat_eq
    rw [BitVec.toNat_ofNat, Nat.mod_eq_of_lt (by omega)]
    have hlt := b.isLt
    by_cases hs : 2 * b.toNat < 2 ^ 32
    · rw [BitVec.toInt_eq_toNat_cond, if_pos hs] at h
      exact_mod_cast h
    · rw [BitVec.toInt_eq_toNat_cond, if_neg hs] at h
      omega
  · rintro rfl
    exact toInt_ofNat_small c hc

/-- The indicator that a label word names class `c`: 1 when the word is the word of `c`, else 0. -/
def ind (w : BitVec 32) (c : ℕ) : EReal := if w = BitVec.ofNat 32 c then 1 else 0

/-- The one-bit result of a word equality test, widened to 32 bits and converted as a signed integer, is the indicator
    of the equality. -/
theorem sitofp_widened_eq (a b : BitVec 32) :
    (FloatOps.sitofp (F := Ideal) .f32 ((IntOp.cmpi .eq a b).setWidth 32) : EReal) = if a = b then 1 else 0 := by
  by_cases h : a = b
  · rw [if_pos h, cmpi_eq_iff.mpr h]
    show ((((1#1 : BitVec 1).setWidth 32).toInt : ℝ) : EReal) = 1
    rw [show ((1#1 : BitVec 1).setWidth 32).toInt = 1 from by decide]
    norm_num
  · rw [if_neg h, eq_zero_of_ne_one (fun h' => h (cmpi_eq_iff.mp h'))]
    show ((((0#1 : BitVec 1).setWidth 32).toInt : ℝ) : EReal) = 0
    rw [show ((0#1 : BitVec 1).setWidth 32).toInt = 0 from by decide]
    norm_num

/-- The float literal `1.0` denotes 1. -/
theorem ofBits_one : Ideal.ofBits .f32 0x3F800000#32 = 1 := by
  simp [Ideal.ofBits, Ideal.ieee, -EReal.coe_mul]; norm_num

/-- A sum of terms each multiplied by the indicator of a test is the sum of the terms over the rows that pass it. -/
theorem sum_ite_mul_eq_sum_filter {N : ℕ} (p : Fin N → Prop) [DecidablePred p] (f : Fin N → EReal) :
    ∑ n : Fin N, (if p n then (1 : EReal) else 0) * f n = ∑ n ∈ Finset.univ.filter p, f n := by
  rw [Finset.sum_filter]
  refine Finset.sum_congr rfl fun n _ => ?_
  by_cases hp : p n
  · rw [if_pos hp, if_pos hp, one_mul]
  · rw [if_neg hp, if_neg hp, zero_mul]

/-- A sum of indicators is the sum of ones over the rows that pass the test. -/
theorem sum_ite_eq_sum_filter_one {N : ℕ} (p : Fin N → Prop) [DecidablePred p] :
    ∑ n : Fin N, (if p n then (1 : EReal) else 0) = ∑ n ∈ Finset.univ.filter p, (1 : EReal) := by
  rw [Finset.sum_filter]

/-- Row `k` of tile `t`, of 16 tiles of 1024 rows: row `1024 t + k` of the 16384. -/
def tileRow (t : Fin 16) (k : Fin 1024) : Fin 16384 := ⟨1024 * t.val + k.val, by have := t.isLt; have := k.isLt; omega⟩

/-- A sum over the 16384 rows is the sum over the 16 tiles of the sums over each tile's 1024 rows. -/
theorem sum_rows_eq_sum_tiles {M : Type*} [AddCommMonoid M] (f : Fin 16384 → M) :
    ∑ n : Fin 16384, f n = ∑ t : Fin 16, ∑ k : Fin 1024, f (tileRow t k) := by
  rw [← Fintype.sum_prod_type']
  refine (Fintype.sum_equiv (finProdFinEquiv (m := 16) (n := 1024)) _ _ fun p => ?_).symm
  show f (tileRow p.1 p.2) = f (finProdFinEquiv p)
  congr 1
  refine Fin.ext ?_
  show 1024 * p.1.val + p.2.val = p.2.val + 1024 * p.1.val
  omega

/-- The sum over the 16 tiles as a sum over the first 16 naturals (the order a running accumulator meets them in). -/
theorem sum_tiles_eq_sum_range {M : Type*} [AddCommMonoid M] (g : ℕ → M) :
    ∑ t : Fin 16, g t.val = ∑ s ∈ Finset.range 16, g s :=
  Fin.sum_univ_eq_sum_range g 16

end Cert.ClassMean

end
-- ==== Proof.TileValues.lean ====
/-
  ONE TILE'S CONTRIBUTION, ELEMENT BY ELEMENT, over the extended reals. For a tile of 1024 labels `yb` and the tile's
  1024 × 1024 block of rows `eb`:

    the indicator matrix (1000 × 1024) at (c, k) is 1 when label k of the tile is the word of c, else 0;
    its product with the rows, at (c, d), is Σ_k [label k names c] · eb (k, d);
    its row sums, at c, are Σ_k [label k names c];
    the sums buffer gains the first, the counts buffer the second;
    the output block at (c, d) is 0.7f · old (c, d) + 0.3f · (sums (c, d) / (counts c + ε)).

  Changes of float format are the identity here and the float literals are kept as their words.
-/
import proofs.«429281_j70325794505046_1_alg».proof.Proof.Gen.KernelIdeal.Skeleton
import proofs.«429281_j70325794505046_1_alg».proof.Proof.Words
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TileValues

open Idealize.ShloMosaic Idealize.ShloMosaic.ValueIdx Cert.KernelIdeal Cert.KernelIdeal.Gen Cert.ClassMean

/-- The kernel's one matrix product: 1000 × 1024 by 1024 × 1024, contracting the left operand's columns with the right
    operand's rows. -/
abbrev prod := dot_S1000x1024_S1024x1024_S1000x1024_1_0_0_1_n_n

/-- A column `[a, 1]` broadcast to `[a, b]` reads, at `(p, q)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, 0)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- THE INDICATOR MATRIX at `(c, k)`: the class numbers down the rows against the tile's labels along the columns. -/
theorem indicator_apply (yb : Vec Ideal S1024 .i32) (c : Fin 1000) (k : Fin 1024) :
    k0_pay3 (F := Ideal) yb (ix2 c k) = ind (yb (ix1 k)) c.val := by
  show FloatOps.sitofp (F := Ideal) .f32 ((IntOp.cmpi .eq
      (broadcastTo S1000x1024 (iota .tc S1000x1 32 [0] iota_S1000x1_d0_w32) broadcasts_S1000x1_S1000x1024 (ix2 c k))
      (broadcastTo S1000x1024 (shapeCast S1x1024 yb shapeCasts_S1024_S1x1024) broadcasts_S1x1024_S1000x1024 (ix2 c k))).setWidth 32) = _
  rw [broadcastTo_a1_ab_apply, broadcastTo_1b_ab_apply, shapeCast_a_1a_apply, iota_single_apply, sitofp_widened_eq]
  unfold ind
  show (if BitVec.ofNat 32 c.val = yb (ix1 k) then (1 : EReal) else 0) = _
  by_cases h : yb (ix1 k) = BitVec.ofNat 32 c.val
  · rw [if_pos h, if_pos h.symm]
  · rw [if_neg h, if_neg (fun h' => h h'.symm)]

/-- The product's left operand is read at the result's row and the contraction position … -/
theorem prod_lhs0 (j : S1000x1024.Idx) (k : (prod).contr.Idx) : ((prod).lhsIdx j k 0).val = (j 0).val := by
  unfold DotDims.lhsIdx
  rw [dif_neg (show (0 : Fin 2) ∉ (prod).lhsBatch from List.not_mem_nil),
    dif_pos (show (0 : Fin 2) ∈ (prod).lhsNonContracting from List.mem_singleton.mpr rfl)]
  rfl
theorem prod_lhs1 (j : S1000x1024.Idx) (k : (prod).contr.Idx) : ((prod).lhsIdx j k 1).val = (k ⟨0, Nat.one_pos⟩).val :=
  (prod).lhsIdx_val_of_single rfl j k
/-- … and the right operand at the contraction position and the result's column. -/
theorem prod_rhs0 (j : S1000x1024.Idx) (k : (prod).contr.Idx) : ((prod).rhsIdx j k 0).val = (k ⟨0, Nat.one_pos⟩).val :=
  (prod).rhsIdx_val_of_single rfl j k
theorem prod_rhs1 (j : S1000x1024.Idx) (k : (prod).contr.Idx) : ((prod).rhsIdx j k 1).val = (j 1).val := by
  unfold DotDims.rhsIdx
  rw [dif_neg (show (1 : Fin 2) ∉ (prod).rhsBatch from List.not_mem_nil),
    dif_pos (show (1 : Fin 2) ∈ (prod).rhsNonContracting from List.mem_singleton.mpr rfl)]
  rfl

/-- THE MATRIX PRODUCT into a zero accumulator, at `(c, d)`: the sum over the 1024 contraction positions. -/
theorem prod_apply (lhs : FVec Ideal S1000x1024 .bf16) (rhs : FVec Ideal S1024x1024 .bf16) (c : Fin 1000) (d : Fin 1024) :
    matmul prod none lhs rhs (constant (F := Ideal) S1000x1024 .f32 0x00000000#32) (ix2 c d)
      = ∑ k : Fin 1024, lhs (ix2 c k) * rhs (ix2 k d) := by
  refine (Ideal.matmul_constant_zero_apply prod none lhs rhs (ix2 c d)).trans ?_
  rw [← Equiv.sum_comp (contrEquiv1 prod 1024 rfl rfl).symm]
  refine Finset.sum_congr rfl fun k _ => ?_
  have el : (prod).lhsIdx (ix2 c d) ((contrEquiv1 prod 1024 rfl rfl).symm k) = ix2 c k := by
    funext a; refine Fin.ext ?_
    match a with
    | ⟨0, _⟩ => exact prod_lhs0 _ _
    | ⟨1, _⟩ => exact (prod_lhs1 _ _).trans (contrEquiv1_symm_val prod 1024 rfl rfl k)
  have er : (prod).rhsIdx (ix2 c d) ((contrEquiv1 prod 1024 rfl rfl).symm k) = ix2 k d := by
    funext a; refine Fin.ext ?_
    match a with
    | ⟨0, _⟩ => exact (prod_rhs0 _ _).trans (contrEquiv1_symm_val prod 1024 rfl rfl k)
    | ⟨1, _⟩ => exact prod_rhs1 _ _
  rw [el, er]

/-- The zero block and the zero column the first point stores. -/
theorem zero_block_apply (i : S1000x1024.Idx) : k0_pay1 (F := Ideal) i = 0 := by
  show Ideal.ofBits .f32 0x00000000#32 = 0
  exact Ideal.ofBits_zero_f32
theorem zero_column_apply (i : S1000x1.Idx) : k0_pay2 (F := Ideal) i = 0 := by
  show Ideal.ofBits .f32 0x00000000#32 = 0
  exact Ideal.ofBits_zero_f32

/-- THE SUMS BUFFER AFTER A TILE, at `(c, d)`: what it held plus the tile's rows labelled `c`, column `d`. -/
theorem sums_step_apply (yb : Vec Ideal S1024 .i32) (eb : Vec Ideal S1024x1024 .f32) (acc : Vec Ideal S1000x1024 .f32)
    (c : Fin 1000) (d : Fin 1024) :
    k0_pay4 (F := Ideal) yb eb acc (ix2 c d) = acc (ix2 c d) + ∑ k : Fin 1024, ind (yb (ix1 k)) c.val * eb (ix2 k d) := by
  unfold k0_pay4
  refine (congrFun (shapeCast_self _ shapeCasts_S1000x1024_S1000x1024) (ix2 c d)).trans ?_
  refine (addf_apply _ _ (ix2 c d)).trans ?_
  refine congrArg (fun z : EReal => acc (ix2 c d) + z) ?_
  refine (prod_apply _ _ c d).trans ?_
  refine Finset.sum_congr rfl fun k _ => ?_
  show k0_pay3 (F := Ideal) yb (ix2 c k) * eb (ix2 k d) = _
  rw [indicator_apply]

/-- The position summed at class `c`, lane `k` by the row sum of a 1000 × 1024 block. -/
theorem row_lift (c : Fin 1000) (k : Fin 1024) : reduces_S1000x1024_S1000.lift (ix1 c) k = ix2 c k := by
  funext a; refine Fin.ext ?_
  match a with
  | ⟨0, _⟩ => rfl
  | ⟨1, _⟩ => rfl

/-- THE COUNTS BUFFER AFTER A TILE, at `c`: what it held plus the number of the tile's rows labelled `c`. -/
theorem counts_step_apply (yb : Vec Ideal S1024 .i32) (cnt : Vec Ideal S1000x1 .f32) (c : Fin 1000) :
    k0_pay5 (F := Ideal) yb cnt (ix2 c (0 : Fin 1)) = cnt (ix2 c (0 : Fin 1)) + ∑ k : Fin 1024, ind (yb (ix1 k)) c.val := by
  unfold k0_pay5
  refine (congrFun (shapeCast_self _ shapeCasts_S1000x1_S1000x1) (ix2 c (0 : Fin 1))).trans ?_
  refine (addf_apply _ _ (ix2 c (0 : Fin 1))).trans ?_
  refine congrArg (fun z : EReal => cnt (ix2 c (0 : Fin 1)) + z) ?_
  refine (shapeCast_a_a1_apply _ shapeCasts_S1000_S1000x1 c).trans ?_
  refine (Ideal.multiReduction_add_single (k0_pay3 (F := Ideal) yb) 0x00000000#32 reduces_S1000x1024_S1000 _ _ (ix1 c)).trans ?_
  refine Finset.sum_congr rfl fun (k : Fin 1024) _ => ?_
  rw [row_lift, indicator_apply]

/-- THE OUTPUT BLOCK at `(c, d)`, from the sums, the counts and the old centroids. -/
theorem output_apply (s : Vec Ideal S1000x1024 .f32) (n : Vec Ideal S1000x1 .f32) (old : Vec Ideal S1000x1024 .f32)
    (c : Fin 1000) (d : Fin 1024) :
    k0_pay6 (F := Ideal) s n old (ix2 c d)
      = Ideal.ofBits .f32 0x3F333333#32 * old (ix2 c d)
        + Ideal.ofBits .f32 0x3E99999A#32 * Ideal.div (s (ix2 c d)) (n (ix2 c (0 : Fin 1)) + Ideal.ofBits .f32 0x322BCC77#32) := by
  unfold k0_pay6
  refine (addf_apply _ _ (ix2 c d)).trans ?_
  show Ideal.ofBits .f32 0x3F333333#32 * old (ix2 c d)
      + Ideal.ofBits .f32 0x3E99999A#32 * Ideal.div (s (ix2 c d))
          (broadcastTo S1000x1024 (addf n (broadcast S1000x1 (FloatOps.ofBits (F := Ideal) .f32 0x322BCC77#32)))
            broadcasts_S1000x1_S1000x1024 (ix2 c d)) = _
  rw [broadcastTo_a1_ab_apply]
  rfl

end Cert.KernelIdeal.TileValues

end
-- ==== Proof.Spec.lean ====
/-
  THE RESULT AS ONE FUNCTION OF THE ARGUMENTS. For labels `y` (16384 words), rows `e` (16384 × 1024) and old centroids
  `w` (1000 × 1024), over the extended reals:

      S (c, d) = Σ_b [y b names c] · e (b, d)            the sum of the rows labelled c
      N  c     = Σ_b [y b names c]                       how many rows are labelled c
      result (c, d) = 0.7f · w (c, d) + 0.3f · (S (c, d) / (N c + ε))

  with 0.7f, 0.3f, ε the three float literals both programs share, kept as their words. Both sums split over the 16
  tiles of 1024 rows, which is the order a running accumulator meets them in.
-/
import proofs.«429281_j70325794505046_1_alg».proof.Proof.Words

noncomputable section

open scoped BigOperators

namespace Cert.ClassMean

open Idealize.ShloMosaic Idealize.ShloMosaic.ValueIdx

abbrev Labels := (⟨1, ![16384]⟩ : Shape).Idx → BitVec 32
abbrev Rows := (⟨2, ![16384, 1024]⟩ : Shape).Idx → EReal
abbrev Table := (⟨2, ![1000, 1024]⟩ : Shape).Idx → EReal

/-- The sum of the rows labelled `c`, column `d`. -/
def classSum (y : Labels) (e : Rows) (c : Fin 1000) (d : Fin 1024) : EReal :=
  ∑ b : Fin 16384, ind (y (ix1 b)) c.val * e (ix2 b d)

/-- The number of rows labelled `c`. -/
def classCount (y : Labels) (c : Fin 1000) : EReal := ∑ b : Fin 16384, ind (y (ix1 b)) c.val

/-- The updated centroids. -/
def updated (y : Labels) (e : Rows) (w : Table) : Table := fun i =>
  Ideal.ofBits .f32 0x3F333333#32 * w i
    + Ideal.ofBits .f32 0x3E99999A#32 * Ideal.div (classSum y e (i 0) (i 1)) (classCount y (i 0) + Ideal.ofBits .f32 0x322BCC77#32)

/-- Tile `s`'s share of `classSum` (nothing past the sixteenth tile). -/
def tileSum (y : Labels) (e : Rows) (c : Fin 1000) (d : Fin 1024) (s : ℕ) : EReal :=
  if h : s < 16 then ∑ k : Fin 1024, ind (y (ix1 (tileRow ⟨s, h⟩ k))) c.val * e (ix2 (tileRow ⟨s, h⟩ k) d) else 0

/-- Tile `s`'s share of `classCount`. -/
def tileCount (y : Labels) (c : Fin 1000) (s : ℕ) : EReal :=
  if h : s < 16 then ∑ k : Fin 1024, ind (y (ix1 (tileRow ⟨s, h⟩ k))) c.val else 0

theorem classSum_eq_tiles (y : Labels) (e : Rows) (c : Fin 1000) (d : Fin 1024) :
    classSum y e c d = ∑ s ∈ Finset.range 16, tileSum y e c d s := by
  unfold classSum
  rw [sum_rows_eq_sum_tiles, ← sum_tiles_eq_sum_range (tileSum y e c d)]
  refine Finset.sum_congr rfl fun t _ => ?_
  unfold tileSum
  rw [dif_pos t.isLt]

theorem classCount_eq_tiles (y : Labels) (c : Fin 1000) :
    classCount y c = ∑ s ∈ Finset.range 16, tileCount y c s := by
  unfold classCount
  rw [sum_rows_eq_sum_tiles, ← sum_tiles_eq_sum_range (tileCount y c)]
  refine Finset.sum_congr rfl fun t _ => ?_
  unfold tileCount
  rw [dif_pos t.isLt]

end Cert.ClassMean

end
-- ==== Proof.KernelValue.lean ====
/-
  THE KERNEL COMPUTES THE SPECIFICATION. Point `t` of the 16-point grid sees tile `t` of the labels and of the rows
  (positions `1024 t + k`) and the whole table of old centroids. By induction on the point, after point `n` the sums
  buffer holds the first `n + 1` tiles' shares of the per-class sums and the counts buffer the first `n + 1` tiles' shares
  of the per-class counts; so after the last point they hold the per-class sums and counts, and the output block stored
  there is the updated centroids. That block is the whole result array and is written back at the last point only.
-/
import proofs.«429281_j70325794505046_1_alg».proof.Proof.Gen.KernelIdeal.Value
import proofs.«429281_j70325794505046_1_alg».proof.Proof.KernelCases
import proofs.«429281_j70325794505046_1_alg».proof.Proof.TileValues
import proofs.«429281_j70325794505046_1_alg».proof.Proof.Spec

noncomputable section

open scoped BigOperators

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.PointValues Cert.KernelIdeal.TileValues Cert.ClassMean

variable (m : (ℓ : Loc nD τ sig) → Buf (Elt Ideal) ℓ) (ρ : Dev nD → PrngReg)

/-- The three argument arrays as the kernel finds them, and the blocks of them point `t` sees. -/
abbrev labels (c : Dev nD) : Vec Ideal S16384 .i32 := V m c main_arg1
abbrev rows (c : Dev nD) : Vec Ideal S16384x1024 .f32 := V m c main_arg0
abbrev olds (c : Dev nD) : Vec Ideal S1000x1024 .f32 := V m c main_arg2
abbrev labelsAt (c : Dev nD) (t : Fin cfg0.N) : Vec Ideal S1024 .i32 := iblk m c 1 t
abbrev rowsAt (c : Dev nD) (t : Fin cfg0.N) : Vec Ideal S1024x1024 .f32 := iblk m c 0 t
abbrev oldsAt (c : Dev nD) (t : Fin cfg0.N) : Vec Ideal S1000x1024 .f32 := iblk m c 2 t

theorem point_lt (t : Fin cfg0.N) : t.val < 16 := lt_of_lt_of_eq t.isLt (show cfg0.N = 16 from N_0)

/-- Where each window's block sits at point `t`: the rows' and the labels' at tile `t`, the old centroids' and the
    output's at the origin. Decided over the grid. -/
theorem block_index : ∀ t : Fin cfg0.N,
    win0_0.index t (0 : Fin 2) = t.val ∧ win0_0.index t (1 : Fin 2) = 0 ∧ win0_1.index t (0 : Fin 1) = t.val
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N,
    win0_0.index t (0 : Fin 2) = t.val ∧ win0_0.index t (1 : Fin 2) = 0 ∧ win0_1.index t (0 : Fin 1) = t.val
    ∧ win0_2.index t (0 : Fin 2) = 0 ∧ win0_2.index t (1 : Fin 2) = 0
    ∧ win0_3.index t (0 : Fin 2) = 0 ∧ win0_3.index t (1 : Fin 2) = 0)

/-- Label `k` of the tile point `t` sees is label `1024 t + k`. -/
theorem labelsAt_apply (c : Dev nD) (t : Fin cfg0.N) (k : Fin 1024) :
    labelsAt m c t (ix1 k) = labels m c (ix1 (tileRow ⟨t.val, point_lt t⟩ k)) := by
  show iblk m c 1 t (ix1 k) = _
  unfold iblk
  rw [View.read_apply]
  show V m c main_arg1 _ = V m c main_arg1 _
  congr 1
  funext a
  apply Fin.ext
  match a with
  | ⟨0, _⟩ =>
    show win0_1.index t 0 * 1024 + 1 * k.val = 1024 * t.val + k.val
    rw [(block_index t).2.2.1]; omega

/-- Row `k` of the block point `t` sees is row `1024 t + k`. -/
theorem rowsAt_apply (c : Dev nD) (t : Fin cfg0.N) (k : Fin 1024) (d : Fin 1024) :
    rowsAt m c t (ix2 k d) = rows m c (ix2 (tileRow ⟨t.val, point_lt t⟩ k) d) := by
  show iblk m c 0 t (ix2 k d) = _
  unfold iblk
  rw [View.read_apply]
  show V m c main_arg0 _ = V m c main_arg0 _
  congr 1
  funext a
  apply Fin.ext
  match a with
  | ⟨0, _⟩ =>
    show win0_0.index t 0 * 1024 + 1 * k.val = 1024 * t.val + k.val
    rw [(block_index t).1]; omega
  | ⟨1, _⟩ =>
    show win0_0.index t 1 * 1024 + 1 * d.val = d.val
    rw [(block_index t).2.1]; omega

/-- Every point sees the whole table of old centroids. -/
theorem oldsAt_apply (c : Dev nD) (t : Fin cfg0.N) (a : Fin 1000) (d : Fin 1024) :
    oldsAt m c t (ix2 a d) = olds m c (ix2 a d) := by
  show iblk m c 2 t (ix2 a d) = _
  unfold iblk
  rw [View.read_apply]
  show V m c main_arg2 _ = V m c main_arg2 _
  congr 1
  funext b
  apply Fin.ext
  match b with
  | ⟨0, _⟩ =>
    show win0_2.index t 0 * 1000 + 1 * a.val = a.val
    rw [(block_index t).2.2.2.1]; omega
  | ⟨1, _⟩ =>
    show win0_2.index t 1 * 1024 + 1 * d.val = d.val
    rw [(block_index t).2.2.2.2.1]; omega

/-- The tile's contribution to the sums, as the kernel forms it at point `t`, is tile `t`'s share. -/
theorem tile_sum_eq (c : Dev nD) (t : Fin cfg0.N) (a : Fin 1000) (d : Fin 1024) :
    ∑ k : Fin 1024, ind (labelsAt m c t (ix1 k)) a.val * rowsAt m c t (ix2 k d) = tileSum (labels m c) (rows m c) a d t.val := by
  unfold tileSum
  rw [dif_pos (point_lt t)]
  refine Finset.sum_congr rfl fun k _ => ?_
  rw [labelsAt_apply, rowsAt_apply]

theorem tile_count_eq (c : Dev nD) (t : Fin cfg0.N) (a : Fin 1000) :
    ∑ k : Fin 1024, ind (labelsAt m c t (ix1 k)) a.val = tileCount (labels m c) a t.val := by
  unfold tileCount
  rw [dif_pos (point_lt t)]
  refine Finset.sum_congr rfl fun k _ => ?_
  rw [labelsAt_apply]

/-- THE RUNNING BUFFERS AFTER POINT `n`: the first `n + 1` tiles' shares of the sums and of the counts. -/
theorem buffers_after (c : Dev nD) : ∀ (n : ℕ) (hn : n < cfg0.N),
    (∀ (a : Fin 1000) (d : Fin 1024),
        (outsAt0 m c n hn).2.1 (ix2 a d) = ∑ s ∈ Finset.range (n + 1), tileSum (labels m c) (rows m c) a d s)
    ∧ (∀ a : Fin 1000,
        (outsAt0 m c n hn).2.2 (ix2 a (0 : Fin 1)) = ∑ s ∈ Finset.range (n + 1), tileCount (labels m c) a s)
  | 0, hn => by
    have h0 : (⟨0, hn⟩ : Fin cfg0.N).val % 16 = 0 := rfl
    have h1 : ¬(⟨0, hn⟩ : Fin cfg0.N).val % 16 = 15 := by dsimp only; omega
    rw [outsAt0_A m c ⟨0, hn⟩ h0 h1]
    dsimp only
    constructor
    · intro a d
      rw [sums_first]
      refine (sums_step_apply (labelsAt m c ⟨0, hn⟩) (rowsAt m c ⟨0, hn⟩) (k0_pay1 (F := Ideal)) a d).trans ?_
      rw [zero_block_apply, zero_add, Finset.sum_range_one]
      exact tile_sum_eq m c ⟨0, hn⟩ a d
    · intro a
      rw [counts_first]
      refine (counts_step_apply (labelsAt m c ⟨0, hn⟩) (k0_pay2 (F := Ideal)) a).trans ?_
      rw [zero_column_apply, zero_add, Finset.sum_range_one]
      exact tile_count_eq m c ⟨0, hn⟩ a
  | n + 1, hn => by
    have hN : n + 1 < 16 := lt_of_lt_of_eq hn (show cfg0.N = 16 from N_0)
    obtain ⟨ihS, ihC⟩ := buffers_after c n (Nat.lt_of_succ_lt hn)
    have h0 : ¬(⟨n + 1, hn⟩ : Fin cfg0.N).val % 16 = 0 := by dsimp only; omega
    by_cases h1 : (⟨n + 1, hn⟩ : Fin cfg0.N).val % 16 = 15
    · rw [outsAt0_C m c ⟨n + 1, hn⟩ h0 h1]
      dsimp only
      constructor
      · intro a d
        rw [sums_last]
        refine (sums_step_apply (labelsAt m c ⟨n + 1, hn⟩) (rowsAt m c ⟨n + 1, hn⟩) _ a d).trans ?_
        rw [Finset.sum_range_succ _ (n + 1)]
        exact congrArg₂ (· + ·) (ihS a d) (tile_sum_eq m c ⟨n + 1, hn⟩ a d)
      · intro a
        rw [counts_last]
        refine (counts_step_apply (labelsAt m c ⟨n + 1, hn⟩) _ a).trans ?_
        rw [Finset.sum_range_succ _ (n + 1)]
        exact congrArg₂ (· + ·) (ihC a) (tile_count_eq m c ⟨n + 1, hn⟩ a)
    · rw [outsAt0_B m c ⟨n + 1, hn⟩ h0 h1]
      dsimp only
      constructor
      · intro a d
        rw [sums_mid]
        refine (sums_step_apply (labelsAt m c ⟨n + 1, hn⟩) (rowsAt m c ⟨n + 1, hn⟩) _ a d).trans ?_
        rw [Finset.sum_range_succ _ (n + 1)]
        exact congrArg₂ (· + ·) (ihS a d) (tile_sum_eq m c ⟨n + 1, hn⟩ a d)
      · intro a
        rw [counts_mid]
        refine (counts_step_apply (labelsAt m c ⟨n + 1, hn⟩) _ a).trans ?_
        rw [Finset.sum_range_succ _ (n + 1)]
        exact congrArg₂ (· + ·) (ihC a) (tile_count_eq m c ⟨n + 1, hn⟩ a)

/-- The updated centroids of the arguments: what the result array ends holding. -/
abbrev result (c : Dev nD) : Buf (Elt Ideal) ((c : Thread nD τ).loc main_v0) := updated (labels m c) (rows m c) (olds m c)

/-- THE OUTPUT BLOCK STORED AT THE LAST POINT is the updated centroids. -/
theorem output_at_last (c : Dev nD) (t : Fin cfg0.N) (h1 : t.val % 16 = 15) :
    (outsAt0 m c t.val t.isLt).1 = result m c := by
  have hN := point_lt t
  have h0 : ¬t.val % 16 = 0 := by omega
  have ht : t.val + 1 = 16 := by omega
  obtain ⟨hS, hC⟩ := buffers_after m c t.val t.isLt
  rw [outsAt0_C m c t h0 h1] at hS hC ⊢
  dsimp only at hS hC ⊢
  rw [sums_last] at hS
  rw [counts_last] at hC
  rw [out_last]
  funext i
  obtain ⟨a, d, rfl⟩ : ∃ (a : Fin 1000) (d : Fin 1024), i = ix2 a d := ⟨i 0, i 1, eq_ix2 i⟩
  refine (output_apply _ _ (oldsAt m c t) a d).trans ?_
  rw [hS a d, hC a, oldsAt_apply, ht]
  show _ = updated (labels m c) (rows m c) (olds m c) (ix2 a d)
  unfold updated
  rw [classSum_eq_tiles, classCount_eq_tiles]

/-- The one write-back, at the last point, writes the updated centroids: block (0, 0) of the result array is the array. -/
theorem flushed_eq (c : Dev nD) (t : Fin cfg0.N) (hf : (cfg0.win 3).flush t = true) :
    (dats m 0 c).flushed 3 t = ((cfg0.win 3).blk t).view.read (Elt Ideal) (result m c) := by
  have h1 := (flush0_3 t).mp hf
  rw [Cert.KernelIdeal.Value.flushed3, output_at_last m c t h1]
  funext y
  rw [View.read_apply]
  show result m c _ = result m c _
  congr 1
  funext b
  apply Fin.ext
  match b with
  | ⟨0, _⟩ =>
    show (y 0).val = win0_3.index t 0 * 1000 + 1 * (y 0).val
    rw [(block_index t).2.2.2.2.2.1]; omega
  | ⟨1, _⟩ =>
    show (y 1).val = win0_3.index t 1 * 1024 + 1 * (y 1).val
    rw [(block_index t).2.2.2.2.2.2]; omega

/-- An index of the result array is in point `t`'s block when each coordinate is in the block's range on its axis. -/
theorem mem_block (t : Fin cfg0.N) (i : S1000x1024.Idx) :
    i ∈ ((cfg0.win 3).blk t).view.set ↔ ∀ a : Fin 2, win0_3.index t a * S1000x1024.size a ≤ (i a).val
      ∧ (i a).val < win0_3.index t a * S1000x1024.size a + S1000x1024.size a := by
  show i ∈ ((View.whole main_v0).slice (win0_3.rect t)).set ↔ _
  rw [View.set_slice_whole, Rect.mem_set_unit]
  exact Iff.rfl

/-- So the result array ends holding the updated centroids: the last point's block covers it. -/
theorem final (c : Dev nD) : (dats m 0 c).arrAt 3 cfg0.N = result m c :=
  (dats m 0 c).arrAt_eq_of_cover 3 (result m c) (flushed_eq m c) fun i =>
    ⟨t0_15, (flush0_3 t0_15).mpr rfl, by
      rw [mem_block]
      intro a
      have h0 : (i 0).val < 1000 := (i 0).isLt
      have h1 : (i 1).val < 1024 := (i 1).isLt
      match a with
      | ⟨0, _⟩ =>
        show win0_3.index t0_15 0 * 1000 ≤ (i 0).val ∧ (i 0).val < win0_3.index t0_15 0 * 1000 + 1000
        rw [(block_index t0_15).2.2.2.2.2.1]; omega
      | ⟨1, _⟩ =>
        show win0_3.index t0_15 1 * 1024 ≤ (i 1).val ∧ (i 1).val < win0_3.index t0_15 1 * 1024 + 1024
        rw [(block_index t0_15).2.2.2.2.2.2]; omega⟩

/-- The run, read: the result array at the updated centroids of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.RunValue

end
-- ==== Proof.SegmentSum.lean ====
/-
  THE REFERENCE'S TWO ACCUMULATING SCATTERS, READ AT ONE ELEMENT. The reference forms the per-class sums by scattering
  the 16384 rows of the batch, with addition, into a 1000 × 1024 array of zeros, row `b` going to the row its label
  names; and the per-class counts by scattering 16384 ones into 1000 zeros the same way. An update whose label, read
  as a signed integer, is not one of `0 … 999` lands outside the target and contributes nothing. So

      sums   (c, d) = target (c, d) + Σ over the rows b whose label read signed is c of rows (b, d)
      counts  c     = target  c     + Σ over the rows b whose label read signed is c of ones  b

  and, a label read signed being `c` exactly when it is the word of `c`, these are the sums of the terms multiplied by
  the indicator "row b's label is the word of c" over all rows.
-/
import proofs.«429281_j70325794505046_1_alg».proof.ReferenceIdeal
import proofs.«429281_j70325794505046_1_alg».proof.Proof.Words
import Idealize.ShloMosaic.PureOps.Ideal
import Idealize.ShloMosaic.Lib.ValueIdx

set_option maxRecDepth 16384

noncomputable section

open scoped BigOperators

namespace Cert.ReferenceIdeal.SegmentSum

open Idealize.ShloMosaic Idealize.ShloMosaic.ValueIdx Cert.ReferenceIdeal Cert.ClassMean

variable [Facts]

local notation "rowsInto" => scatter_S1000x1024_S16384x1_S16384x1024_1_0_0_1
local notation "onesInto" => scatter_S1000_S16384x1_S16384_n_0_0_1

/-- The position of row `b`'s label in the labels kept as a 16384 × 1 column. -/
abbrev lab (b : Fin 16384) : S16384x1.Idx := ix2 b (0 : Fin 1)

section Rows
variable {w : ℕ} (idx : IVec S16384x1 w) (b : Fin 16384) (d : Fin 1024)

/-- Update `(b, d)` starts, on the class axis, at row `b`'s label read signed … -/
theorem rows_start0 : (rowsInto).start (ix2 b d) idx 0 = (idx (lab b)).toInt := by
  unfold ScatterDims.start
  rw [dif_pos (show (0 : Fin 2) ∈ (rowsInto).scatterDimsToOperandDims from List.mem_singleton.mpr rfl)]
  have hsi : (rowsInto).siIdx (ix2 b d) ⟨List.idxOf (0 : Fin 2) (rowsInto).scatterDimsToOperandDims,
      List.idxOf_lt_length_iff.2 (List.mem_singleton.mpr rfl)⟩ = lab b := by
    funext a; refine Fin.ext ?_
    match a with
    | ⟨0, _⟩ => rfl
    | ⟨1, _⟩ => rfl
  rw [hsi]

/-- … and at 0 on the feature axis. -/
theorem rows_start1 : (rowsInto).start (ix2 b d) idx 1 = 0 := by
  unfold ScatterDims.start
  rw [dif_neg (show (1 : Fin 2) ∉ (rowsInto).scatterDimsToOperandDims from
    (by decide : (1 : Fin 2) ∉ ([0] : List (Fin 2))))]

/-- Its window coordinate is 0 on the class axis … -/
theorem rows_window0 : (rowsInto).window (ix2 b d) 0 = 0 := by
  unfold ScatterDims.window
  rw [dif_neg (show (0 : Fin 2) ∉ (rowsInto).sKept from
    (by decide : (0 : Fin 2) ∉ Shape.kept S1000x1024 ([0] : List (Fin 2))))]

/-- … and `d` on the feature axis. -/
theorem rows_window1 : (rowsInto).window (ix2 b d) 1 = d.val := by
  unfold ScatterDims.window
  rw [dif_pos (show (1 : Fin 2) ∈ (rowsInto).sKept from
    (by decide : (1 : Fin 2) ∈ Shape.kept S1000x1024 ([0] : List (Fin 2))))]
  rfl

/-- Update `(b, d)` lands on element `(c, d')` exactly when row `b`'s label read signed is `c` and `d = d'`; a label
    outside `0 … 999` lands nowhere. -/
theorem rows_lands_iff (c : Fin 1000) (d' : Fin 1024) :
    (rowsInto).resultIdx? (ix2 b d) idx = some (ix2 c d') ↔ (idx (lab b)).toInt = (c.val : ℤ) ∧ d = d' := by
  have hc := c.isLt
  have hd := d.isLt
  unfold ScatterDims.resultIdx?
  split
  · next hin =>
    constructor
    · intro e
      have e' := Option.some.inj e
      have e0 : ((rowsInto).start (ix2 b d) idx 0 + ((rowsInto).window (ix2 b d) 0 : ℤ)).toNat = c.val :=
        congrArg Fin.val (congrFun e' 0)
      have e1 : ((rowsInto).start (ix2 b d) idx 1 + ((rowsInto).window (ix2 b d) 1 : ℤ)).toNat = d'.val :=
        congrArg Fin.val (congrFun e' 1)
      have h0 := (hin 0).1
      rw [rows_start0, rows_window0] at e0 h0
      rw [rows_start1, rows_window1] at e1
      exact ⟨by omega, Fin.ext (by omega)⟩
    · rintro ⟨e0, rfl⟩
      refine congrArg some (funext fun a => Fin.ext ?_)
      match a with
      | ⟨0, _⟩ =>
        show ((rowsInto).start (ix2 b d) idx 0 + ((rowsInto).window (ix2 b d) 0 : ℤ)).toNat = c.val
        rw [rows_start0, rows_window0, e0]; omega
      | ⟨1, _⟩ =>
        show ((rowsInto).start (ix2 b d) idx 1 + ((rowsInto).window (ix2 b d) 1 : ℤ)).toNat = d.val
        rw [rows_start1, rows_window1]; omega
  · next hin =>
    constructor
    · intro e; exact absurd e (by simp)
    · rintro ⟨e0, rfl⟩
      refine absurd (fun a => ?_) hin
      match a with
      | ⟨0, _⟩ =>
        show 0 ≤ (rowsInto).start (ix2 b d) idx 0 + ((rowsInto).window (ix2 b d) 0 : ℤ)
          ∧ (rowsInto).start (ix2 b d) idx 0 + ((rowsInto).window (ix2 b d) 0 : ℤ) < (1000 : ℕ)
        rw [rows_start0, rows_window0, e0]; omega
      | ⟨1, _⟩ =>
        show 0 ≤ (rowsInto).start (ix2 b d) idx 1 + ((rowsInto).window (ix2 b d) 1 : ℤ)
          ∧ (rowsInto).start (ix2 b d) idx 1 + ((rowsInto).window (ix2 b d) 1 : ℤ) < (1024 : ℕ)
        rw [rows_start1, rows_window1]; omega

end Rows

/-- THE SCATTER OF ROWS READ AT `(c, d)`: the target's element plus column `d` of the rows whose label read signed is `c`. -/
theorem rows_apply {w : ℕ} (x : FVec Ideal S1000x1024 .f32) (idx : IVec S16384x1 w) (upd : FVec Ideal S16384x1024 .f32)
    (c : Fin 1000) (d : Fin 1024) :
    (Host.scatterAdd (rowsInto) x idx upd (ix2 c d) : EReal)
      = x (ix2 c d) + ∑ b ∈ Finset.univ.filter (fun b : Fin 16384 => (idx (lab b)).toInt = (c.val : ℤ)), upd (ix2 b d) := by
  show (x (ix2 c d) : EReal) + ∑ j ∈ Finset.univ.filter
    (fun j => (rowsInto).resultIdx? j idx = some (ix2 c d)), (upd j : EReal) = _
  refine congrArg (fun z : EReal => (x (ix2 c d) : EReal) + z) ?_
  rw [Finset.sum_filter, sum_idx2, Finset.sum_filter]
  refine Finset.sum_congr rfl fun b _ => ?_
  by_cases hb : (idx (lab b)).toInt = (c.val : ℤ)
  · rw [if_pos hb, Finset.sum_eq_single d]
    · rw [if_pos ((rows_lands_iff idx b d c d).mpr ⟨hb, rfl⟩)]
    · intro d₂ _ hne
      rw [if_neg (fun h => hne ((rows_lands_iff idx b d₂ c d).mp h).2)]
    · intro h; exact absurd (Finset.mem_univ d) h
  · rw [if_neg hb]
    refine Finset.sum_eq_zero fun d₂ _ => ?_
    rw [if_neg (fun h => hb ((rows_lands_iff idx b d₂ c d).mp h).1)]

section Ones
variable {w : ℕ} (idx : IVec S16384x1 w) (b : Fin 16384)

/-- Update `b` of the ones starts at row `b`'s label read signed … -/
theorem ones_start0 : (onesInto).start (ix1 b) idx 0 = (idx (lab b)).toInt := by
  unfold ScatterDims.start
  rw [dif_pos (show (0 : Fin 1) ∈ (onesInto).scatterDimsToOperandDims from List.mem_singleton.mpr rfl)]
  have hsi : (onesInto).siIdx (ix1 b) ⟨List.idxOf (0 : Fin 1) (onesInto).scatterDimsToOperandDims,
      List.idxOf_lt_length_iff.2 (List.mem_singleton.mpr rfl)⟩ = lab b := by
    funext a; refine Fin.ext ?_
    match a with
    | ⟨0, _⟩ => rfl
    | ⟨1, _⟩ => rfl
  rw [hsi]

/-- … with window coordinate 0 (its one axis is the inserted one). -/
theorem ones_window0 : (onesInto).window (ix1 b) 0 = 0 := by
  unfold ScatterDims.window
  rw [dif_neg (show (0 : Fin 1) ∉ (onesInto).sKept from
    (by decide : (0 : Fin 1) ∉ Shape.kept S1000 ([0] : List (Fin 1))))]

/-- Update `b` lands on class `c` exactly when row `b`'s label read signed is `c`. -/
theorem ones_lands_iff (c : Fin 1000) :
    (onesInto).resultIdx? (ix1 b) idx = some (ix1 c) ↔ (idx (lab b)).toInt = (c.val : ℤ) := by
  have hc := c.isLt
  unfold ScatterDims.resultIdx?
  split
  · next hin =>
    constructor
    · intro e
      have e' := Option.some.inj e
      have e0 : ((onesInto).start (ix1 b) idx 0 + ((onesInto).window (ix1 b) 0 : ℤ)).toNat = c.val :=
        congrArg Fin.val (congrFun e' 0)
      have h0 := (hin 0).1
      rw [ones_start0, ones_window0] at e0 h0
      omega
    · intro e0
      refine congrArg some (funext fun a => Fin.ext ?_)
      match a with
      | ⟨0, _⟩ =>
        show ((onesInto).start (ix1 b) idx 0 + ((onesInto).window (ix1 b) 0 : ℤ)).toNat = c.val
        rw [ones_start0, ones_window0, e0]; omega
  · next hin =>
    constructor
    · intro e; exact absurd e (by simp)
    · intro e0
      refine absurd (fun a => ?_) hin
      match a with
      | ⟨0, _⟩ =>
        show 0 ≤ (onesInto).start (ix1 b) idx 0 + ((onesInto).window (ix1 b) 0 : ℤ)
          ∧ (onesInto).start (ix1 b) idx 0 + ((onesInto).window (ix1 b) 0 : ℤ) < (1000 : ℕ)
        rw [ones_start0, ones_window0, e0]; omega

end Ones

/-- A sum over the positions of a vector is the sum over its one coordinate. -/
theorem sum_idx1 {M : Type*} [AddCommMonoid M] {n : ℕ} (f : (⟨1, ![n]⟩ : Shape).Idx → M) :
    ∑ j, f j = ∑ b : Fin n, f (ix1 b) := by
  refine Fintype.sum_equiv ⟨fun j => j 0, fun b => ix1 b, fun j => (eq_ix1 j).symm, fun b => rfl⟩ _ _ fun j => ?_
  exact congrArg f (eq_ix1 j)

/-- THE SCATTER OF ONES READ AT CLASS `c`: the target's element plus the updates of the rows whose label read signed is `c`. -/
theorem ones_apply {w : ℕ} (x : FVec Ideal S1000 .f32) (idx : IVec S16384x1 w) (upd : FVec Ideal S16384 .f32) (c : Fin 1000) :
    (Host.scatterAdd (onesInto) x idx upd (ix1 c) : EReal)
      = x (ix1 c) + ∑ b ∈ Finset.univ.filter (fun b : Fin 16384 => (idx (lab b)).toInt = (c.val : ℤ)), upd (ix1 b) := by
  show (x (ix1 c) : EReal) + ∑ j ∈ Finset.univ.filter
    (fun j => (onesInto).resultIdx? j idx = some (ix1 c)), (upd j : EReal) = _
  refine congrArg (fun z : EReal => (x (ix1 c) : EReal) + z) ?_
  rw [Finset.sum_filter, sum_idx1, Finset.sum_filter]
  refine Finset.sum_congr rfl fun b _ => ?_
  by_cases hb : (idx (lab b)).toInt = (c.val : ℤ)
  · rw [if_pos hb, if_pos ((ones_lands_iff idx b c).mpr hb)]
  · rw [if_neg hb, if_neg (fun h => hb ((ones_lands_iff idx b c).mp h))]

end Cert.ReferenceIdeal.SegmentSum

end
-- ==== Proof.ReferenceValue.lean ====
/-
  THE REFERENCE COMPUTES THE SPECIFICATION. Its first scatter is the per-class sums, its second the per-class counts
  (the updates all ones, the targets all zeros); the remaining operations are the column broadcast of the counts plus ε,
  the quotient, and the blend with the old centroids, each read at one element.
-/
import proofs.«429281_j70325794505046_1_alg».proof.Proof.Gen.ReferenceIdeal.Read
import proofs.«429281_j70325794505046_1_alg».proof.Proof.SegmentSum
import proofs.«429281_j70325794505046_1_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read
open Cert.ReferenceIdeal.SegmentSum Cert.ClassMean

/-- Row `b`'s label, read off the labels kept as a column. -/
theorem column_label (x1 : IVec S16384 32) (b : Fin 16384) : val_main_v1 (F := Ideal) x1 (lab b) = x1 (ix1 b) := by
  rw [val_main_v1_apply]
  exact congrArg x1 (funext fun a => match a with | ⟨0, _⟩ => rfl)

theorem column_label' (x1 : IVec S16384 32) (b : Fin 16384) : val_main_v5 (F := Ideal) x1 (lab b) = x1 (ix1 b) := by
  rw [val_main_v5_apply]
  exact congrArg x1 (funext fun a => match a with | ⟨0, _⟩ => rfl)

/-- The rows whose label read signed is `c` are the rows whose label is the word of `c`. -/
theorem filter_signed_eq (x1 : IVec S16384 32) (col : IVec S16384x1 32) (hcol : ∀ b, col (lab b) = x1 (ix1 b)) (c : Fin 1000) :
    Finset.univ.filter (fun b : Fin 16384 => (col (lab b)).toInt = (c.val : ℤ))
      = Finset.univ.filter (fun b : Fin 16384 => x1 (ix1 b) = BitVec.ofNat 32 c.val) := by
  refine Finset.filter_congr fun b _ => ?_
  rw [hcol b]
  exact toInt_eq_natCast_iff _ _ (by have := c.isLt; omega)

/-- The first scatter is the per-class sums. -/
theorem sums_apply (x0 : FVec Ideal S16384x1024 .f32) (x1 : IVec S16384 32) (c : Fin 1000) (d : Fin 1024) :
    val_main_v2 (F := Ideal) x0 x1 (ix2 c d) = classSum x1 x0 c d := by
  unfold val_main_v2
  rw [rows_apply, val_main_v0_apply, val_main_cst_apply]
  show Ideal.ofBits .f32 0x00000000#32 + _ = _
  rw [Ideal.ofBits_zero_f32, zero_add, filter_signed_eq x1 _ (column_label x1) c]
  unfold classSum ind
  exact (sum_ite_mul_eq_sum_filter (fun b : Fin 16384 => x1 (ix1 b) = BitVec.ofNat 32 c.val) (fun b => x0 (ix2 b d))).symm

/-- The second scatter is the per-class counts. -/
theorem counts_apply (x1 : IVec S16384 32) (c : Fin 1000) :
    val_main_v6 (F := Ideal) x1 (ix1 c) = classCount x1 c := by
  unfold val_main_v6
  rw [ones_apply, val_main_v4_apply, val_main_cst_1_apply]
  show Ideal.ofBits .f32 0x00000000#32 + _ = _
  rw [Ideal.ofBits_zero_f32, zero_add, filter_signed_eq x1 _ (column_label' x1) c]
  unfold classCount ind
  rw [sum_ite_eq_sum_filter_one]
  refine Finset.sum_congr rfl fun b _ => ?_
  rw [val_main_v3_apply, val_main_cst_0_apply]
  exact ofBits_one

/-- THE REFERENCE'S RESULT IS THE UPDATED CENTROIDS. -/
theorem result_eq (x0 : FVec Ideal S16384x1024 .f32) (x1 : IVec S16384 32) (x2 : FVec Ideal S1000x1024 .f32) :
    val_main_v16 (F := Ideal) x0 x1 x2 = updated x1 x0 x2 := by
  funext i
  obtain ⟨c, d, rfl⟩ : ∃ (c : Fin 1000) (d : Fin 1024), i = ix2 c d := ⟨i 0, i 1, eq_ix2 i⟩
  rw [val_main_v16_apply, val_main_v13_apply, val_main_v15_apply, val_main_v11_apply, val_main_v12_apply, val_main_cst_3_apply,
    val_main_v14_apply, val_main_cst_4_apply, val_main_v10_apply, val_main_v9_apply, val_main_v8_apply, val_main_cst_2_apply,
    val_main_v7_apply, sums_apply]
  have e7 : idx_main_v7 (idx_main_v10 (ix2 c d)) = ix1 c := funext fun a => match a with | ⟨0, _⟩ => rfl
  rw [e7, counts_apply]
  rfl

end Cert.ReferenceIdeal.RefValue

end
-- ==== Proof.lean ====
/-
  A running class mean. The kernel walks the batch of 16384 rows in 16 tiles of 1024; for each tile it forms the
  1000 × 1024 indicator matrix "label k of the tile is class c", multiplies it into the tile's rows (adding the rows of
  each class) and sums it along the tile (counting them), accumulating both in buffers it keeps between tiles; at the
  last tile it divides sums by counts plus ε and blends the quotient with the old centroids, 0.7f · old + 0.3f · mean.
  The reference does the same by two accumulating scatters (rows into per-class sums, ones into per-class counts),
  dropping, as the indicator does, every label that names no class.

  Over the extended reals both are one function of the arguments (`Cert.ClassMean.updated`): the indicator's entries
  are exactly 0 and 1, `0 · x = 0` and `1 · x = x` hold for every extended real, and addition is commutative and
  associative, so neither the tiling nor the order of the sums matters and no input need be finite. The three float
  literals are the same words on both sides and are never evaluated; the two changes of float format in the kernel are
  the identity. The one rewrite the idealization made (a widening of a narrowing of the indicator, replaced by the
  indicator) is its rule's own statement.
-/
import proofs.«429281_j70325794505046_1_alg».proof.Defs
import proofs.«429281_j70325794505046_1_alg».proof.Proof.Gen.Kernel
import proofs.«429281_j70325794505046_1_alg».proof.Proof.Gen.Kernel.Skeleton
import proofs.«429281_j70325794505046_1_alg».proof.Proof.Gen.Kernel.Launch
import proofs.«429281_j70325794505046_1_alg».proof.Proof.Gen.Kernel.Points
import proofs.«429281_j70325794505046_1_alg».proof.Proof.Gen.Kernel.Frame
import proofs.«429281_j70325794505046_1_alg».proof.Proof.Gen.KernelIdeal
import proofs.«429281_j70325794505046_1_alg».proof.Proof.Gen.KernelIdeal.Skeleton
import proofs.«429281_j70325794505046_1_alg».proof.Proof.Gen.KernelIdeal.Launch
import proofs.«429281_j70325794505046_1_alg».proof.Proof.Gen.KernelIdeal.Points
import proofs.«429281_j70325794505046_1_alg».proof.Proof.Gen.KernelIdeal.Frame
import proofs.«429281_j70325794505046_1_alg».proof.Proof.Gen.ReferenceIdeal
import proofs.«429281_j70325794505046_1_alg».proof.Proof.Gen.Pre_finite_inputs
import proofs.«429281_j70325794505046_1_alg».proof.Proof.Gen.KernelIdeal.Value
import proofs.«429281_j70325794505046_1_alg».proof.Proof.Gen.ReferenceIdeal.Run
import proofs.«429281_j70325794505046_1_alg».proof.Proof.Gen.ReferenceIdeal.Read
import proofs.«429281_j70325794505046_1_alg».proof.Proof.KernelValue
import proofs.«429281_j70325794505046_1_alg».proof.Proof.ReferenceValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the indicator narrowed to bf16 and widened back is the indicator. -/
theorem preserves : Cert.preserves_Kernel_KernelIdeal :=
  IdealRules.truncf_extf.statement Cert.KernelIdeal.S1000x1024 .f32 .bf16

/-- Both programs end with the updated centroids of the same arguments. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
